-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 4294867296#32
  let main_v19 : IVec S1600000 32 := broadcastInDim S1600000 ![] bcast_S_S1600000 main_c_6
  let main_v20 : IVec S1600000 1 := cmpi .sge main_arg1 main_v19
  let main_c_7 : IVec S_ 32 := constantI S_ 32 100000#32
  let main_v21 : IVec S1600000 32 := broadcastInDim S1600000 ![] bcast_S_S1600000 main_c_7
  let main_v22 : IVec S1600000 1 := cmpi .slt main_arg1 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  main_v25

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2000x128 : Shape := ⟨2, ![2000, 128]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 39
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1, .i32⟩
  | .hbm, ⟨16, _⟩ => ⟨S_, .i32⟩
  | .hbm, ⟨17, _⟩ => ⟨S1600000x1, .i32⟩
  | .hbm, ⟨18, _⟩ => ⟨S1600000x1, .i1⟩
  | .hbm, ⟨19, _⟩ => ⟨S1x1, .i32⟩
  | .hbm, ⟨20, _⟩ => ⟨S1600000x1, .i32⟩
  | .hbm, ⟨21, _⟩ => ⟨S1600000x1, .i1⟩
  | .hbm, ⟨22, _⟩ => ⟨S1600000x1, .i1⟩
  | .hbm, ⟨23, _⟩ => ⟨S_, .i1⟩
  | .hbm, ⟨24, _⟩ => ⟨S1600000, .i1⟩
  | .hbm, ⟨25, _⟩ => ⟨S1600000x128, .f32⟩
  | .hbm, ⟨26, _⟩ => ⟨S1600000x128, .i1⟩
  | .hbm, ⟨27, _⟩ => ⟨S_, .f32⟩
  | .hbm, ⟨28, _⟩ => ⟨S1600000x128, .f32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S1x128, .f32⟩
  | .hbm, ⟨38, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.DenseRegion.lean ====
/-
  The first region: the dense layer. Point `t` of its 50-point grid multiplies rows `2000·t … 2000·t + 1999` of the
  feature matrix by the whole weight matrix (both rounded to a narrower format first, which is the identity over the
  extended reals) into a zero accumulator, and writes the product back as the same rows of the result. So the result
  array ends as ONE function of the two whole arrays: entry (r, j) is `∑ₖ f[r, k] · W[k, j]`.
-/
import proofs.«430287_j18657337934720_1_alg».proof.Proof.Gen.KernelIdeal.Frame
import proofs.«430287_j18657337934720_1_alg».proof.Proof.LibMatmulAt
import Idealize.ShloMosaic.Lib.Pipeline.Value
import Idealize.ShloMosaic.Lib.ValueIdx
import Idealize.ShloMosaic.PureOps.Ideal.Laws

set_option maxRecDepth 16384

noncomputable section

namespace Cert.GraphConv

open Idealize.ShloMosaic Idealize.ShloMosaic.TcCoe Idealize.SL.Sem Idealize.ShloMosaic.ValueIdx
open Cert.KernelIdeal Cert.KernelIdeal.Gen
open Idealize.ShloMosaic.Pipeline (Dat)

/-- The dense layer as one function of the whole arrays: entry (r, j) is the sum over k of `f[r, k] · W[k, j]`. -/
def dense (f : FVec Ideal S100000x128 .f32) (W : FVec Ideal S128x128 .f32) : FVec Ideal S100000x128 .f32 :=
  fun i => ∑ k : Fin 128, f (ix2 (n0 := 100000) (n1 := 128) (i 0) k) * W (ix2 (n0 := 128) (n1 := 128) k (i 1))

/-! ## Where the block product's dimension numbers read their operands: the left at (row, k), the right at (k, column) -/

theorem mm_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem mm_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem mm_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's one stored value at an entry: the block product's entry (p, q) is `∑ₖ x[p, k] · w[k, q]` of the loaded
    blocks (the two roundings are the identity here, the accumulator starts at zero). -/
theorem densePay_apply (v0 : Vec Ideal S2000x128 .f32) (v2 : Vec Ideal S128x128 .f32) (p : Fin 2000) (q : Fin 128) :
    k0_pay1 (F := Ideal) v0 v2 (ix2 p q) = ∑ k : Fin 128, v0 (ix2 p k) * v2 (ix2 k q) := by
  unfold k0_pay1
  refine (MatmulAt.matmul_zero_at dot_S2000x128_S128x128_S2000x128_1_0_0_1_n_n rfl rfl mm_lhs_0 mm_lhs_1 mm_rhs_0 mm_rhs_1 none _ _ p q).trans ?_
  rfl

/-! ## From blocks to the array -/

variable (V : (c : Dev nD) → (b : Ref sig .tc) → Buf (Elt Ideal) ((c : Thread nD τ).loc b))

theorem offs_zero : (![0, 0] : Fin 2 → Nat) = fun _ => 0 := funext fun a => by fin_cases a <;> rfl

/-- The printed index maps over the grid: the feature window moves with the result window along the rows and both sit at
    column block 0; the weight window never moves; the result's row block at point `t` is `t`. -/
theorem dense_index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of `dense` of the two arrays as the region finds them. -/
theorem dense_flushed (c : Dev nD) (t : Fin cfg0.N) :
    (dat0 (F := Ideal) V c).flushed 2 t
      = ((cfg0.win 2).blk t).view.read (Elt Ideal) (dense (V c main_arg0) (V c main_arg4)) := by
  show (cfg0.win 2).cut (grid0.coords t) ((dat0 (F := Ideal) V c).after 2 t) = _
  rw [after0_2]
  unfold out0_2
  rw [View.canon_unit_zero offs_zero]
  simp only [View.ld_unit_zero (S := S2000x128) offs_zero, View.ld_unit_zero (S := S128x128) offs_zero]
  obtain ⟨e0, e1, e2, e3, e4, e5⟩ := dense_index_facts t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = dense (V c main_arg0) (V c main_arg4) (((cfg0.win 2).blk t).view.emb (ix2 p q))
  refine (densePay_apply (iblk0 V c 0 t) (iblk0 V c 1 t) p q).trans ?_
  unfold dense
  refine Finset.sum_congr rfl fun k _ => ?_
  have h0 : ((cfg0.win 0).blk t).view.emb (ix2 p k)
      = ix2 (n0 := 100000) (n1 := 128) ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q)
      = ix2 (n0 := 128) (n1 := 128) k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have a0 : iblk0 V c 0 t (ix2 p k)
      = V c main_arg0 (ix2 (n0 := 100000) (n1 := 128) ((((cfg0.win 2).blk t).view.emb (ix2 p q)) 0) k) := by
    show V c main_arg0 (((cfg0.win 0).blk t).view.emb (ix2 p k)) = _
    rw [h0]
  have a1 : iblk0 V c 1 t (ix2 k q)
      = V c main_arg4 (ix2 (n0 := 128) (n1 := 128) k ((((cfg0.win 2).blk t).view.emb (ix2 p q)) 1)) := by
    show V c main_arg4 (((cfg0.win 1).blk t).view.emb (ix2 k q)) = _
    rw [h1]
  rw [a0, a1]

/-- An index of the result array is in point `t`'s block iff each coordinate is in the block's range on its axis. -/
theorem dense_mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The 50 row blocks tile the result array: row `r` is in the block of point `r / 2000`. -/
theorem dense_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 2000 < cfg0.N := by rw [show cfg0.N = 50 from N_0]; omega
  refine ⟨⟨(i 0).val / 2000, hN⟩, flush0_2 _, ?_⟩
  obtain ⟨e0, e1, e2, e3, e4, e5⟩ := dense_index_facts ⟨(i 0).val / 2000, hN⟩
  rw [dense_mem_blk]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; simp only at e4; omega
  | ⟨1, _⟩ => show win0_2.index ⟨(i 0).val / 2000, hN⟩ (1 : Fin 2) * 128 ≤ (i 1).val ∧ (i 1).val < win0_2.index ⟨(i 0).val / 2000, hN⟩ (1 : Fin 2) * 128 + 128; omega

/-- The result array after the region: `dense` of the feature and weight arrays as the region finds them. -/
theorem dense_final (c : Dev nD) :
    (dat0 (F := Ideal) V c).arrAt 2 cfg0.N = dense (V c main_arg0) (V c main_arg4) :=
  (dat0 (F := Ideal) V c).arrAt_eq_of_cover 2 (dense (V c main_arg0) (V c main_arg4)) (fun t _ => dense_flushed V c t) dense_cover

end Cert.GraphConv

end
-- ==== Proof.EpilogueRegion.lean ====
/-
  The second region: bias, rectifier and residual. Point `t` of its 50-point grid loads rows `2000·t … 2000·t + 1999`
  of the aggregated messages and of the features, and the one-row bias, and writes back `max(agg + b, 0) + f` as the same
  rows of the result. So the result array ends as ONE pointwise function of the three whole arrays.
-/
import proofs.«430287_j18657337934720_1_alg».proof.Proof.Gen.KernelIdeal.Frame
import Idealize.ShloMosaic.Lib.Pipeline.Value
import Idealize.ShloMosaic.Lib.ValueIdx

set_option maxRecDepth 16384

noncomputable section

namespace Cert.GraphConv

open Idealize.ShloMosaic Idealize.ShloMosaic.TcCoe Idealize.SL.Sem Idealize.ShloMosaic.ValueIdx
open Cert.KernelIdeal Cert.KernelIdeal.Gen
open Idealize.ShloMosaic.Pipeline (Dat)

/-- Bias, rectifier and residual as one function of the whole arrays: entry (r, j) is `max(agg[r, j] + b[0, j], 0) + f[r, j]`. -/
def epilogue (agg : FVec Ideal S100000x128 .f32) (b2 : FVec Ideal S1x128 .f32) (feat : FVec Ideal S100000x128 .f32) :
    FVec Ideal S100000x128 .f32 :=
  fun i => max (agg i + b2 (ix2 (n0 := 1) (n1 := 128) 0 (i 1))) (Ideal.ofBits .f32 0x00000000#32) + feat i

/-- The body's one stored value at an entry: the bias row is laid down every row of the block, the rest is pointwise. -/
theorem epiPay_apply (v0 : Vec Ideal S1x128 .f32) (v2 v8 : Vec Ideal S2000x128 .f32) (p : Fin 2000) (q : Fin 128) :
    k1_pay1 (F := Ideal) v0 v2 v8 (ix2 p q)
      = max (v2 (ix2 p q) + v0 (ix2 0 q)) (Ideal.ofBits .f32 0x00000000#32) + v8 (ix2 p q) := by
  unfold k1_pay1
  rw [addf_apply, maximumf_apply, addf_apply, broadcast_apply, shapeCast_self, shapeCast_self]
  rw [broadcastTo_apply v0 _ (ix2 p q) (ix2 0 q) (fun a => by match a with | ⟨0, _⟩ => rfl | ⟨1, _⟩ => rfl)]
  rfl

/-! ## From blocks to the array -/

variable (V : (c : Dev nD) → (b : Ref sig .tc) → Buf (Elt Ideal) ((c : Thread nD τ).loc b))

theorem offs_zero' : (![0, 0] : Fin 2 → Nat) = fun _ => 0 := funext fun a => by fin_cases a <;> rfl

/-- The printed index maps over the grid: the message and feature windows move with the result window along the rows,
    all at column block 0; the bias window never moves; the result's row block at point `t` is `t`. -/
theorem epi_index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of `epilogue` of the three arrays as the region finds them. -/
theorem epi_flushed (c : Dev nD) (t : Fin cfg1.N) :
    (dat1 (F := Ideal) V c).flushed 3 t
      = ((cfg1.win 3).blk t).view.read (Elt Ideal) (epilogue (V c main_v7) (V c main_v8) (V c main_arg0)) := by
  show (cfg1.win 3).cut (grid1.coords t) ((dat1 (F := Ideal) V c).after 3 t) = _
  rw [after1_3]
  unfold out1_3
  rw [View.canon_unit_zero offs_zero']
  simp only [View.ld_unit_zero (S := S2000x128) offs_zero', View.ld_unit_zero (S := S1x128) offs_zero']
  obtain ⟨e0, e1, e2, e3, e4, e5, e6, e7⟩ := epi_index_facts t
  funext j
  obtain ⟨p, q, rfl⟩ : ∃ (p : Fin 2000) (q : Fin 128), j = ix2 p q := ⟨j 0, j 1, eq_ix2 j⟩
  show k1_pay1 (F := Ideal) (iblk1 V c 1 t) (iblk1 V c 0 t) (iblk1 V c 2 t) (ix2 p q)
    = epilogue (V c main_v7) (V c main_v8) (V c main_arg0) (((cfg1.win 3).blk t).view.emb (ix2 p q))
  refine (epiPay_apply (iblk1 V c 1 t) (iblk1 V c 0 t) (iblk1 V c 2 t) p q).trans ?_
  unfold epilogue
  have h0 : ((cfg1.win 0).blk t).view.emb (ix2 p q) = ((cfg1.win 3).blk t).view.emb (ix2 p q) := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  have h2 : ((cfg1.win 2).blk t).view.emb (ix2 p q) = ((cfg1.win 3).blk t).view.emb (ix2 p q) := by
    funext a; apply Fin.ext
    match a with
    | ⟨0, _⟩ => show win1_2.index t (0 : Fin 2) * 2000 + 1 * p.val = win1_3.index t (0 : Fin 2) * 2000 + 1 * p.val; omega
    | ⟨1, _⟩ => show win1_2.index t (1 : Fin 2) * 128 + 1 * q.val = win1_3.index t (1 : Fin 2) * 128 + 1 * q.val; omega
  have h1 : ((cfg1.win 1).blk t).view.emb (ix2 (0 : Fin 1) q)
      = ix2 (n0 := 1) (n1 := 128) 0 ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have a0 : iblk1 V c 0 t (ix2 p q) = V c main_v7 (((cfg1.win 3).blk t).view.emb (ix2 p q)) := by
    show V c main_v7 (((cfg1.win 0).blk t).view.emb (ix2 p q)) = _
    rw [h0]
  have a1 : iblk1 V c 1 t (ix2 (0 : Fin 1) q)
      = V c main_v8 (ix2 (n0 := 1) (n1 := 128) 0 ((((cfg1.win 3).blk t).view.emb (ix2 p q)) 1)) := by
    show V c main_v8 (((cfg1.win 1).blk t).view.emb (ix2 (0 : Fin 1) q)) = _
    rw [h1]
  have a2 : iblk1 V c 2 t (ix2 p q) = V c main_arg0 (((cfg1.win 3).blk t).view.emb (ix2 p q)) := by
    show V c main_arg0 (((cfg1.win 2).blk t).view.emb (ix2 p q)) = _
    rw [h2]
  rw [a0, a1, a2]

/-- An index of the result array is in point `t`'s block iff each coordinate is in the block's range on its axis. -/
theorem epi_mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v9).slice (win1_3.rect t)).set ↔ _
  rw [View.set_slice_whole, Rect.mem_set_unit]
  exact Iff.rfl

/-- The 50 row blocks tile the result array: row `r` is in the block of point `r / 2000`. -/
theorem epi_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 2000 < cfg1.N := by rw [show cfg1.N = 50 from N_1]; omega
  refine ⟨⟨(i 0).val / 2000, hN⟩, flush1_3 _, ?_⟩
  obtain ⟨e0, e1, e2, e3, e4, e5, e6, e7⟩ := epi_index_facts ⟨(i 0).val / 2000, hN⟩
  rw [epi_mem_blk]
  intro a
  match a with
  | ⟨0, _⟩ => show win1_3.index ⟨(i 0).val / 2000, hN⟩ (0 : Fin 2) * 2000 ≤ (i 0).val ∧ (i 0).val < win1_3.index ⟨(i 0).val / 2000, hN⟩ (0 : Fin 2) * 2000 + 2000; simp only at e6; omega
  | ⟨1, _⟩ => show win1_3.index ⟨(i 0).val / 2000, hN⟩ (1 : Fin 2) * 128 ≤ (i 1).val ∧ (i 1).val < win1_3.index ⟨(i 0).val / 2000, hN⟩ (1 : Fin 2) * 128 + 128; omega

/-- The result array after the region: `epilogue` of the message, bias and feature arrays as the region finds them. -/
theorem epi_final (c : Dev nD) :
    (dat1 (F := Ideal) V c).arrAt 3 cfg1.N = epilogue (V c main_v7) (V c main_v8) (V c main_arg0) :=
  (dat1 (F := Ideal) V c).arrAt_eq_of_cover 3 (epilogue (V c main_v7) (V c main_v8) (V c main_arg0)) (fun t _ => epi_flushed V c t) epi_cover

end Cert.GraphConv

end
-- ==== Proof.WrapWord.lean ====
/-
  Row indices as 32-bit words. A row index `x` into an axis of 100000 rows is admissible, NumPy style, when
  `-100000 ≤ x < 100000` read signed; both programs first wrap a negative index by adding 100000. This file says
  that the wrapped word of an admissible index lies in `[0, 99999]`, which is what a fill-mode take tests before it
  keeps a gathered row.
-/
import Idealize.ShloMosaic.Lib.Affine

namespace Cert.GraphConv

open Idealize.ShloMosaic

/-- The wrap of a possibly negative row index: `x + 100000` when `x < 0`, else `x`. -/
def wrapWord (x : BitVec 32) : BitVec 32 :=
  Scalar.select (IntOp.cmpi .slt x 0#32) (IntOp.addi x 100000#32) x

/-- Every entry of an index array is an admissible row index: `-100000 ≤ x < 100000`, signed
    (`4294867296` is the two's-complement word of `-100000`). -/
def InRange {s : Shape} (x : IVec s 32) : Prop :=
  ∀ e : s.Idx, IntOp.cmpi .sge (x e) 4294867296#32 = 1#1 ∧ IntOp.cmpi .slt (x e) 100000#32 = 1#1

/-- An admissible index wraps into `[0, 99999]`: for `x < 0` the sum `x + 100000` does not overflow and lands in
    `[0, 99999]`; for `x ≥ 0` nothing changes and `x < 100000`. -/
theorem wrapWord_range (x : BitVec 32) (hlo : IntOp.cmpi .sge x 4294867296#32 = 1#1)
    (hhi : IntOp.cmpi .slt x 100000#32 = 1#1) :
    IntOp.cmpi .sge (wrapWord x) 0#32 = 1#1 ∧ IntOp.cmpi .sle (wrapWord x) 99999#32 = 1#1 := by
  have h0 : (0#32 : BitVec 32).toInt = 0 := by decide
  have hN : (100000#32 : BitVec 32).toInt = 100000 := by decide
  have hM : (4294867296#32 : BitVec 32).toInt = -100000 := by decide
  have hT : (99999#32 : BitVec 32).toInt = 99999 := by decide
  rw [IntOp.cmpi_sge, hM] at hlo
  rw [IntOp.cmpi_slt, hN] at hhi
  rw [IntOp.cmpi_sge, IntOp.cmpi_sle, h0, hT]
  unfold wrapWord Scalar.select
  by_cases hneg : IntOp.cmpi .slt x 0#32 = 1#1
  · rw [if_pos (show IntOp.cmpi .slt x 0#32 = 1 from hneg)]
    rw [IntOp.cmpi_slt, h0] at hneg
    have hsum : (IntOp.addi x 100000#32).toInt = x.toInt + 100000 := by
      rw [IntOp.addi, BitVec.toInt_add, hN]
      exact Int.bmod_eq_of_le (by omega) (by omega)
    omega
  · rw [if_neg (show ¬IntOp.cmpi .slt x 0#32 = 1 from hneg)]
    rw [IntOp.cmpi_slt, h0] at hneg
    omega

end Cert.GraphConv
-- ==== Proof.TakeRows.lean ====
/-
  The kernel's row gather is a fill-mode take: it wraps negative indices, gathers the (clamped) rows, and then keeps a
  gathered row only where the wrapped index lies in `[0, 99999]`, writing a filler elsewhere. When every index is an
  admissible row index the test passes everywhere, so the take IS the plain gather at the wrapped indices.
-/
import proofs.«430287_j18657337934720_1_alg».proof.KernelIdeal
import proofs.«430287_j18657337934720_1_alg».proof.Proof.WrapWord
import Idealize.ShloMosaic.PureOps.Reduce

noncomputable section

namespace Cert.GraphConv

open Idealize.ShloMosaic Cert.KernelIdeal

variable {F : FTy → Type} [FloatOps F] [Cert.KernelIdeal.Facts]
open Cert.KernelIdeal.Facts₀

/-- The wrapped indices as a column of start indices. -/
def wrapCol (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The in-range test of the wrapped column, entry by entry: `0 ≤ w ∧ w ≤ 99999`. -/
def testCol (x : IVec S1600000 32) : IVec S1600000x1 1 :=
  andi (cmpi .sge (wrapCol x) (broadcastInDim S1600000x1 ![] bcast_S_S1600000x1 (constantI S_ 32 0#32)))
    (cmpi .sle (wrapCol x) (broadcastInDim S1600000x1 ![0, 1] bcast_S1x1_S1600000x1_0_1
      (broadcastInDim S1x1 ![1] bcast_S1_S1x1_1 (constantI S1 32 99999#32))))

/-- Which rows the take keeps: the test, all-reduced along the column's one-element axis. -/
def keepRow (x : IVec S1600000 32) : IVec S1600000 1 :=
  Host.reduce IntOp.andi (testCol x) (constantI S_ 1 1#1) reducesTo_S1600000x1_S1600000_d1 h_S_

/-- The fill-mode take of the rows of `sup` at the indices `x`. -/
def takeRows (sup : FVec F S100000x128 .f32) (x : IVec S1600000 32) : FVec F S1600000x128 .f32 :=
  select (broadcastInDim S1600000x128 ![0] bcast_S1600000_S1600000x128_0 (keepRow x))
    (Host.gather gather_S100000x128_S1600000x1_S1600000x128_1_0_n_n_0_1_1128 sup (wrapCol x))
    (broadcastInDim S1600000x128 ![] bcast_S_S1600000x128 (constant S_ .f32 0x7FC00000#32))

/-- Each entry of the wrapped column is the wrap of one entry of `x`. -/
theorem wrapCol_entry (x : IVec S1600000 32) (i : S1600000x1.Idx) : ∃ e : S1600000.Idx, wrapCol x i = wrapWord (x e) :=
  ⟨_, rfl⟩

/-- Under the range every entry of the test is 1. -/
theorem testCol_one (x : IVec S1600000 32) (hx : InRange x) (i : S1600000x1.Idx) : testCol x i = 1#1 := by
  obtain ⟨e, he⟩ := wrapCol_entry x i
  have hr := wrapWord_range (x e) (hx e).1 (hx e).2
  show IntOp.andi (IntOp.cmpi .sge (wrapCol x i) 0#32) (IntOp.cmpi .sle (wrapCol x i) 99999#32) = 1#1
  rw [he]
  exact IntOp.andi_eq_one.2 hr

/-- A left fold by `and` from 1 over words that are all 1 is 1. -/
theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_ones f hf l

/-- Under the range the take keeps every row. -/
theorem keepRow_one (x : IVec S1600000 32) (hx : InRange x) (e : S1600000.Idx) : keepRow x e = 1#1 := by
  unfold keepRow
  rw [Host.reduce_eq_foldl]
  exact foldl_andi_ones (testCol x) (testCol_one x hx) _

/-- Under the range the fill-mode take is the plain gather of the rows at the wrapped indices. -/
theorem takeRows_eq_gather (sup : FVec F S100000x128 .f32) (x : IVec S1600000 32) (hx : InRange x) :
    takeRows sup x = Host.gather gather_S100000x128_S1600000x1_S1600000x128_1_0_n_n_0_1_1128 sup (wrapCol x) := by
  funext j
  unfold takeRows
  show Scalar.select (keepRow x _) _ _ = _
  rw [keepRow_one x hx]
  rfl

end Cert.GraphConv

end
-- ==== Proof.KernelSpec.lean ====
/-
  The kernel's result as one function of its six argument arrays: the dense layer's rows, taken at the source indices,
  scaled by the edge values, summed into the destination rows, then bias, rectifier and residual.
-/
import proofs.«430287_j18657337934720_1_alg».proof.Proof.DenseRegion
import proofs.«430287_j18657337934720_1_alg».proof.Proof.EpilogueRegion
import proofs.«430287_j18657337934720_1_alg».proof.Proof.TakeRows

noncomputable section

namespace Cert.GraphConv

open Idealize.ShloMosaic Cert.KernelIdeal Cert.KernelIdeal.Facts₀

/-- The messages summed per destination row: row `e` of the take of `sup` at `src`, scaled by `vals[e]`, is added into
    row `dst[e]` of a zero array. -/
def aggregate (sup : FVec Ideal S100000x128 .f32) (src dst : IVec S1600000 32) (vals : FVec Ideal S1600000 .f32) :
    FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (takeRows sup src)
      (broadcastInDim S1600000x128 ![0, 1] bcast_S1600000x1_S1600000x128_0_1
        (broadcastInDim S1600000x1 ![0] bcast_S1600000_S1600000x1_0 vals)))

/-- The kernel's result: the epilogue of the aggregated messages of the dense layer's rows, the bias as a one-row matrix. -/
def kernelValue (f : FVec Ideal S100000x128 .f32) (src dst : IVec S1600000 32) (vals : FVec Ideal S1600000 .f32)
    (W : FVec Ideal S128x128 .f32) (b : FVec Ideal S128 .f32) : FVec Ideal S100000x128 .f32 :=
  epilogue (aggregate (dense f W) src dst vals) (shapeCast S1x128 b shapeCasts_S128_S1x128) f

end Cert.GraphConv

end
-- ==== Proof.KernelValue.lean ====
/-
  What the kernel's result buffer holds after the run, as ONE function of the six argument arrays.

  The program is: the dense layer (a region), then on the host the fill-mode take of its rows at the source indices, the
  scaling of each taken row by its edge value and the scatter-add of the scaled rows into the destination rows, then the
  epilogue (a region). Each region leaves its result array at one function of the arrays it found (`dense`,
  `epilogue`); the host stretch between them is read off operation by operation; composing the three gives `kernelValue`.
-/
import proofs.«430287_j18657337934720_1_alg».proof.Proof.KernelRun
import proofs.«430287_j18657337934720_1_alg».proof.Proof.DenseRegion
import proofs.«430287_j18657337934720_1_alg».proof.Proof.EpilogueRegion
import proofs.«430287_j18657337934720_1_alg».proof.Proof.KernelSpec
import Idealize.ShloMosaic.Lib.StableHlo.Run

set_option maxRecDepth 16384

noncomputable section

namespace Cert.GraphConv

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After the first region the dense layer's buffer holds `dense` of the features and the weights. -/
theorem dense_buffer (c : Dev nD) :
    W1 m ρ c (Proc.devRef .tc main_v0) = dense (V0 m ρ c main_arg0) (V0 m ρ c main_arg4) :=
  (W1_arr m ρ c 2).trans (dense_final (V0 m ρ) c)

/-- Contents carried to a typed reference's buffer type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- For a literal reference the carrying is the identity. -/
theorem ofBuf_src (v : IVec S1600000 32) :
    (StableHlo.TRef.of (sig := sig) (T := ⟨S1600000, .i32⟩) main_arg1).ofBuf (Val := Elt Ideal) v = v := rfl
theorem ofBuf_dense (v : FVec Ideal S100000x128 .f32) :
    (StableHlo.TRef.of (sig := sig) (T := ⟨S100000x128, .f32⟩) main_v0).ofBuf (Val := Elt Ideal) v = v := rfl
theorem toBuf_taken (v : FVec Ideal S1600000x128 .f32) :
    (StableHlo.TRef.of (sig := sig) (T := ⟨S1600000x128, .f32⟩) main_v1).toBuf (Val := Elt Ideal) v = v := rfl

set_option maxHeartbeats 2000000 in
/-- The take's stretch, read operation by operation: its result is `takeRows` of the dense layer's buffer and the
    source indices as the stretch finds them. -/
theorem taken_buffer (c : Dev nD) :
    W2 m ρ c (Proc.devRef .tc main_v1)
      = takeRows (F := Ideal) (W1 m ρ c (Proc.devRef .tc main_v0)) (W1 m ρ c (Proc.devRef .tc main_arg1)) := by
  show StableHlo.after hostOps1 (W1 m ρ c) (Proc.devRef .tc main_v1) = _
  after_results
  simp only [ofBuf_toBuf, ofBuf_src, ofBuf_dense, toBuf_taken]
  unfold takeRows keepRow testCol wrapCol
  rfl

set_option maxHeartbeats 2000000 in
/-- The take's stretch writes neither the destination indices nor the edge values. -/
theorem dst_kept (c : Dev nD) : W2 m ρ c (Proc.devRef .tc main_arg2) = W1 m ρ c (Proc.devRef .tc main_arg2) := by
  show StableHlo.after hostOps1 (W1 m ρ c) (Proc.devRef .tc main_arg2) = _
  after_results
set_option maxHeartbeats 2000000 in
theorem vals_kept (c : Dev nD) : W2 m ρ c (Proc.devRef .tc main_arg3) = W1 m ρ c (Proc.devRef .tc main_arg3) := by
  show StableHlo.after hostOps1 (W1 m ρ c) (Proc.devRef .tc main_arg3) = _
  after_results
set_option maxHeartbeats 2000000 in
theorem bias_kept (c : Dev nD) : W2 m ρ c (Proc.devRef .tc main_arg5) = W1 m ρ c (Proc.devRef .tc main_arg5) := by
  show StableHlo.after hostOps1 (W1 m ρ c) (Proc.devRef .tc main_arg5) = _
  after_results

set_option maxHeartbeats 2000000 in
/-- The second stretch, read operation by operation: the scaled rows scatter-added into a zero array. -/
theorem scattered_buffer (c : Dev nD) :
    V3 m ρ c main_v7 = Host.scatterAdd (F := Ideal) scatter_S100000x128_S1600000x1_S1600000x128_1_0_0_1
      (broadcastInDim S100000x128 ![] Facts₀.bcast_S_S100000x128 (constant (F := Ideal) S_ .f32 0x00000000#32))
      (broadcastInDim S1600000x1 ![0] Facts₀.bcast_S1600000_S1600000x1_0 (W2 m ρ c (Proc.devRef .tc main_arg2)))
      (mulf (W2 m ρ c (Proc.devRef .tc main_v1))
        (broadcastInDim S1600000x128 ![0, 1] Facts₀.bcast_S1600000x1_S1600000x128_0_1
          (broadcastInDim S1600000x1 ![0] Facts₀.bcast_S1600000_S1600000x1_0 (W2 m ρ c (Proc.devRef .tc main_arg3))))) := by
  show StableHlo.after hostOps1_1 (W2 m ρ c) (Proc.devRef .tc main_v7) = _
  after_results

/-- The second region finds, as its message array, the aggregate of what the first region left and of the index and
    edge-value arguments. -/
theorem messages_buffer (c : Dev nD) :
    V3 m ρ c main_v7 = aggregate (W1 m ρ c (Proc.devRef .tc main_v0)) (W1 m ρ c (Proc.devRef .tc main_arg1))
      (W1 m ρ c (Proc.devRef .tc main_arg2)) (W1 m ρ c (Proc.devRef .tc main_arg3)) := by
  rw [scattered_buffer, taken_buffer, dst_kept, vals_kept]
  rfl

/-- … and as its bias row the bias argument recast as a one-row matrix. -/
theorem bias_buffer (c : Dev nD) :
    V3 m ρ c main_v8 = shapeCast S1x128 (W1 m ρ c (Proc.devRef .tc main_arg5)) Facts₀.shapeCasts_S128_S1x128 := by
  rw [← bias_kept]
  show StableHlo.after hostOps1_1 (W2 m ρ c) (Proc.devRef .tc main_v8) = _
  after_results
  rfl

/-- … and the features as launched: nothing before the second region writes them. -/
theorem features_buffer (c : Dev nD) : V3 m ρ c main_arg0 = m ((c : Thread nD τ).loc main_arg0) :=
  ((W4_arr m ρ c 2).trans (((dat1 (V3 m ρ) c).arrAt_in 2 rfl _).trans (A_eq1 (V3 m ρ) c 2))).symm.trans (W4_main_arg0 m ρ c)

/-- The result buffer at the end of the run is `kernelValue` of the six argument arrays as launched. -/
theorem result_buffer (c : Dev nD) :
    W4 m ρ c (Proc.devRef .tc main_v9)
      = kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 3).trans ((epi_final (V3 m ρ) c).trans ?_)
  rw [messages_buffer, bias_buffer, features_buffer, dense_buffer,
    W1_of_ne m ρ c main_arg1 (by decide), W1_of_ne m ρ c main_arg2 (by decide), W1_of_ne m ρ c main_arg3 (by decide),
    W1_of_ne m ρ c main_arg5 (by decide)]
  rfl

end Cert.GraphConv

end
-- ==== Proof.Bridge.lean ====
/-
  The two results are one function of the arguments. The reference computes `max(agg + b, 0) + f` where `agg` sums,
  into row `dst[e]`, row `src[e]` (wrapped if negative) of `f · W` scaled by `vals[e]`. The kernel computes the same
  with three differences of form, none of value: its dense layer is the block products laid side by side (entry by entry
  the same sum over k as the whole product); its bias is recast as a one-row matrix and laid down every row (the same
  entry `b[j]` as the reference's two broadcasts); and its row gather is a fill-mode take, which under the index range
  is the plain gather. The scatter-add is the same operation on both sides and is never opened.
-/
import proofs.«430287_j18657337934720_1_alg».proof.Proof.KernelSpec
import proofs.«430287_j18657337934720_1_alg».proof.Proof.Gen.ReferenceIdeal.Read
import Idealize.ShloMosaic.Lib.ValueLayout

set_option maxRecDepth 16384

noncomputable section

namespace Cert.GraphConv

open Idealize.ShloMosaic Idealize.ShloMosaic.ValueIdx

section Reference
open Cert.ReferenceIdeal Cert.ReferenceIdeal.Facts₀

/-- The reference's result as a function of its six argument arrays: the composed term of its run. -/
def refValue (f : FVec Ideal S100000x128 .f32) (src dst : IVec S1600000 32) (vals : FVec Ideal S1600000 .f32)
    (W : FVec Ideal S128x128 .f32) (b : FVec Ideal S128 .f32) : FVec Ideal S100000x128 .f32 :=
  addf (maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (Host.gather gather_S100000x128_S1600000x1_S1600000x128_1_0_n_n_0_1_1128 (Host.dotGeneral dot_S100000x128_S128x128_S100000x128_1_0_0_1_n_n none f W) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x128 ![0, 1] bcast_S1600000x1_S1600000x128_0_1 (broadcastInDim S1600000x1 ![0] bcast_S1600000_S1600000x1_0 vals)))) (broadcastInDim S100000x128 ![0, 1] bcast_S1x128_S100000x128_0_1 (broadcastInDim S1x128 ![1] bcast_S128_S1x128_1 b))) (broadcastInDim S100000x128 ![] bcast_S_S100000x128 (constant S_ .f32 0x00000000#32))) f

/-- The whole product at an entry is the sum over k of `f[r, k] · W[k, j]`: the dense layer's function. -/
theorem dotGeneral_eq_dense (f : FVec Ideal S100000x128 .f32) (W : FVec Ideal S128x128 .f32) :
    Host.dotGeneral dot_S100000x128_S128x128_S100000x128_1_0_0_1_n_n none f W = dense f W := by
  funext i
  refine (Read.val_main_v0_apply f W i).trans ?_
  unfold dense
  refine Finset.sum_congr rfl fun k _ => ?_
  have el : Read.lidx_main_v0 i k = ix2 (n0 := 100000) (n1 := 128) (i 0) k := funext fun a => by
    match a with
    | ⟨0, _⟩ => rfl
    | ⟨1, _⟩ => rfl
  have er : Read.ridx_main_v0 i k = ix2 (n0 := 128) (n1 := 128) k (i 1) := funext fun a => by
    match a with
    | ⟨0, _⟩ => rfl
    | ⟨1, _⟩ => rfl
  rw [el, er]

/-- The bias laid down every row, read at an entry: `b[j]`. -/
theorem bias_rows_apply (b : FVec Ideal S128 .f32) (i : S100000x128.Idx) :
    broadcastInDim S100000x128 ![0, 1] bcast_S1x128_S100000x128_0_1 (broadcastInDim S1x128 ![1] bcast_S128_S1x128_1 b) i
      = b (ix1 (n := 128) (i 1)) := by
  rw [broadcastInDim_apply _ bcast_S1x128_S100000x128_0_1 _ i (ix2 (n0 := 1) (n1 := 128) 0 (i 1))
    (fun a => by match a with | ⟨0, _⟩ => rfl | ⟨1, _⟩ => rfl)]
  exact broadcastInDim_apply _ bcast_S128_S1x128_1 b _ (ix1 (n := 128) (i 1))
    (fun a => by match a with | ⟨0, _⟩ => rfl)

end Reference

section Kernel
open Cert.KernelIdeal Cert.KernelIdeal.Facts₀

/-- The aggregate of the kernel, under the index range, is the reference's scatter-add of its gathered and scaled rows. -/
theorem aggregate_eq (f : FVec Ideal S100000x128 .f32) (src dst : IVec S1600000 32) (vals : FVec Ideal S1600000 .f32)
    (W : FVec Ideal S128x128 .f32) (hsrc : InRange src) :
    aggregate (dense f W) src dst vals
      = Host.scatterAdd Cert.ReferenceIdeal.scatter_S100000x128_S1600000x1_S1600000x128_1_0_0_1
          (broadcastInDim Cert.ReferenceIdeal.S100000x128 ![] Cert.ReferenceIdeal.Facts₀.bcast_S_S100000x128 (constant Cert.ReferenceIdeal.S_ .f32 0x00000000#32))
          (broadcastInDim Cert.ReferenceIdeal.S1600000x1 ![0] Cert.ReferenceIdeal.Facts₀.bcast_S1600000_S1600000x1_0 dst)
          (mulf (Host.gather Cert.ReferenceIdeal.gather_S100000x128_S1600000x1_S1600000x128_1_0_n_n_0_1_1128
              (Host.dotGeneral Cert.ReferenceIdeal.dot_S100000x128_S128x128_S100000x128_1_0_0_1_n_n none f W)
              (broadcastInDim Cert.ReferenceIdeal.S1600000x1 ![0] Cert.ReferenceIdeal.Facts₀.bcast_S1600000_S1600000x1_0
                (select (cmpi .slt src (broadcastInDim Cert.ReferenceIdeal.S1600000 ![] Cert.ReferenceIdeal.Facts₀.bcast_S_S1600000 (constantI Cert.ReferenceIdeal.S_ 32 0#32)))
                  (addi src (broadcastInDim Cert.ReferenceIdeal.S1600000 ![] Cert.ReferenceIdeal.Facts₀.bcast_S_S1600000 (constantI Cert.ReferenceIdeal.S_ 32 100000#32))) src)))
            (broadcastInDim Cert.ReferenceIdeal.S1600000x128 ![0, 1] Cert.ReferenceIdeal.Facts₀.bcast_S1600000x1_S1600000x128_0_1
              (broadcastInDim Cert.ReferenceIdeal.S1600000x1 ![0] Cert.ReferenceIdeal.Facts₀.bcast_S1600000_S1600000x1_0 vals))) := by
  unfold aggregate
  rw [takeRows_eq_gather _ _ hsrc, dotGeneral_eq_dense]
  rfl

/-- The kernel's bias row at an entry: `b[j]`. -/
theorem bias_row_apply (b : FVec Ideal S128 .f32) (q : Fin 128) :
    shapeCast S1x128 b shapeCasts_S128_S1x128 (ix2 (n0 := 1) (n1 := 128) 0 q) = b (ix1 (n := 128) q) :=
  shapeCast_a_1a_apply b shapeCasts_S128_S1x128 0 q

/-- THE BRIDGE: under the index range the kernel's result is the reference's. -/
theorem kernelValue_eq_refValue (f : FVec Ideal S100000x128 .f32) (src dst : IVec S1600000 32)
    (vals : FVec Ideal S1600000 .f32) (W : FVec Ideal S128x128 .f32) (b : FVec Ideal S128 .f32) (hsrc : InRange src) :
    kernelValue f src dst vals W b = refValue f src dst vals W b := by
  unfold kernelValue
  rw [aggregate_eq f src dst vals W hsrc]
  funext i
  unfold epilogue refValue
  rw [addf_apply, maximumf_apply, addf_apply]
  have hb : shapeCast S1x128 b shapeCasts_S128_S1x128 (ix2 (n0 := 1) (n1 := 128) 0 (i 1))
      = broadcastInDim Cert.ReferenceIdeal.S100000x128 ![0, 1] Cert.ReferenceIdeal.Facts₀.bcast_S1x128_S100000x128_0_1
          (broadcastInDim Cert.ReferenceIdeal.S1x128 ![1] Cert.ReferenceIdeal.Facts₀.bcast_S128_S1x128_1 b) i :=
    (bias_row_apply b (i 1)).trans (bias_rows_apply b i).symm
  rw [hb]
  rfl

end Kernel

end Cert.GraphConv

end
-- ==== Proof.PreRange.lean ====
/-
  The precondition, read back: besides the finiteness of the float inputs it says that every entry of the source-index
  array is an admissible row index. This file extracts that one fact from the printed predicate being all ones.
-/
import proofs.«430287_j18657337934720_1_alg».proof.Pre_finite_inputs
import proofs.«430287_j18657337934720_1_alg».proof.Proof.WrapWord
import Idealize.ShloMosaic.Lib.ReduceAll

namespace Cert.GraphConv

open Idealize.ShloMosaic Cert.Pre_finite_inputs

variable {F : FTy → Type} [FloatOps F] [Cert.Pre_finite_inputs.Facts]

instance : Subsingleton S_.Idx := ⟨fun a b => funext fun d => d.elim0⟩

/-- The predicate is a conjunction whose last conjunct is the `all` of `-100000 ≤ src ∧ src < 100000`, entry by entry:
    where the predicate is 1 that `all` is 1, hence every entry's test. -/
theorem inRange_of_pre (a0 : FVec F S100000x128 .f32) (a1 : IVec S1600000 32) (a2 : IVec S1600000 32)
    (a3 : FVec F S1600000 .f32) (a4 : FVec F S128x128 .f32) (a5 : FVec F S128 .f32)
    (h : Cert.Pre_finite_inputs.fn (F := F) a0 a1 a2 a3 a4 a5 = fun _ => 1#1) : InRange a1 := by
  have h0 := congrFun h (fun d => d.elim0)
  unfold Cert.Pre_finite_inputs.fn Cert.Pre_finite_inputs.fn_part1 at h0
  dsimp only at h0
  obtain ⟨-, h24⟩ := IntOp.andi_eq_one.1 h0
  intro e
  have he := Host.reduce_andi_all _ _ _ _ _ h24 e
  exact IntOp.andi_eq_one.1 he

end Cert.GraphConv
-- ==== Proof.lean ====
/-
  A graph-convolution layer: `out = max(A · (f · W) + b, 0) + f`, where the sparse product `A · s` adds, for every edge
  `e`, row `src[e]` of `s` scaled by `vals[e]` into row `dst[e]`. The kernel computes the dense product `f · W` in
  row blocks of 2000, gathers, scales and scatter-adds on the host, and applies bias, rectifier and residual in row
  blocks of 2000 again; the reference does all of it on whole arrays.

  Over the extended reals the two results are equal entry by entry provided every source index is an admissible row
  index, `-100000 ≤ src[e] < 100000`: both programs wrap a negative index by adding 100000, after which the reference
  gathers the row (clamping an index that is still out of range) while the kernel's take keeps a gathered row only if
  the wrapped index lies in `[0, 99999]` and writes a filler otherwise. In range, the two gathers agree; the block
  products laid side by side are the whole product (the same sum over k at every entry; rounding to a narrower format is
  the identity here); the bias recast as one row and laid down the block is the bias broadcast to the whole array; and
  the scatter-add is one and the same operation of equal operands. No algebraic law beyond that is needed, so the
  finiteness of the float inputs is never used.

  The three frames are the generated ones (the reference's is its run with the result dropped); the kernel's run is
  taken once more with the result buffer read at the end (KernelRun), its contents computed in KernelValue from the two
  regions' whole-array functions (DenseRegion, EpilogueRegion) and the host stretch between them; Bridge joins the two
  results; PreRange reads the index range out of the precondition.
-/
import proofs.«430287_j18657337934720_1_alg».proof.Defs
import proofs.«430287_j18657337934720_1_alg».proof.Proof.Gen.Kernel
import proofs.«430287_j18657337934720_1_alg».proof.Proof.Gen.Kernel.Skeleton
import proofs.«430287_j18657337934720_1_alg».proof.Proof.Gen.Kernel.Launch
import proofs.«430287_j18657337934720_1_alg».proof.Proof.Gen.Kernel.Points
import proofs.«430287_j18657337934720_1_alg».proof.Proof.Gen.Kernel.Frame
import proofs.«430287_j18657337934720_1_alg».proof.Proof.Gen.KernelIdeal
import proofs.«430287_j18657337934720_1_alg».proof.Proof.Gen.KernelIdeal.Skeleton
import proofs.«430287_j18657337934720_1_alg».proof.Proof.Gen.KernelIdeal.Launch
import proofs.«430287_j18657337934720_1_alg».proof.Proof.Gen.KernelIdeal.Points
import proofs.«430287_j18657337934720_1_alg».proof.Proof.Gen.KernelIdeal.Frame
import proofs.«430287_j18657337934720_1_alg».proof.Proof.Gen.ReferenceIdeal
import proofs.«430287_j18657337934720_1_alg».proof.Proof.Gen.Pre_finite_inputs
import proofs.«430287_j18657337934720_1_alg».proof.Proof.Gen.ReferenceIdeal.Run
import proofs.«430287_j18657337934720_1_alg».proof.Proof.Gen.ReferenceIdeal.Read
import proofs.«430287_j18657337934720_1_alg».proof.Proof.KernelValue
import proofs.«430287_j18657337934720_1_alg».proof.Proof.Bridge
import proofs.«430287_j18657337934720_1_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem Cert.GraphConv

/-- Both kernel programs run, nothing faulting, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, under the precondition, both programs end with the result array at
    `kernelValue` of the kernel's arguments: the kernel by its run, the reference because its composed term, with the
    arguments' agreement rewritten, is that function under the index range the precondition states. -/
theorem algebraic : Cert.algebraic_KernelIdeal_ReferenceIdeal := by
  intro m ρ m' ρ' hpre hagree
  refine ⟨fun c => kernelValue (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (result_buffer m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (kernelValue_eq_refValue _ _ _ _ _ _ (inRange_of_pre _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
